-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S4096x1024 : Shape := ⟨2, ![4096, 1024]⟩
abbrev S2048 : Shape := ⟨1, ![2048]⟩
abbrev S2048x512 : Shape := ⟨2, ![2048, 512]⟩
abbrev S1024x2048 : Shape := ⟨2, ![1024, 2048]⟩
abbrev S3072x2048 : Shape := ⟨2, ![3072, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S2048 : S_.BroadcastsInDim S2048 (![] : Fin 0 → Fin S2048.rank)
  reducesTo_S2048_S_d0 : S2048.ReducesTo [0] S_
  bcast_S_S2048x512 : S_.BroadcastsInDim S2048x512 (![] : Fin 0 → Fin S2048x512.rank)
  reducesTo_S2048x512_S_d0_1 : S2048x512.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S3072x2048 : S_.BroadcastsInDim S3072x2048 (![] : Fin 0 → Fin S3072x2048.rank)
  reducesTo_S3072x2048_S_d0_1 : S3072x2048.ReducesTo [0, 1] S_

variable [Facts]

def fn_part2 {F : FTy → Type} [FloatOps F] (main_arg7 : FVec F S2048 .f32) (main_arg8 : FVec F S3072x2048 .f32) (main_arg9 : FVec F S2048 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S3072x2048 .f32 := Host.absf main_arg8
  let main_cst_14 : FVec F S_ .f32 := constant S_ .f32 0x7F800000#32
  let main_v40 : FVec F S3072x2048 .f32 := broadcastInDim S3072x2048 ![] bcast_S_S3072x2048 main_cst_14
  let main_v41 : IVec S3072x2048 1 := cmpf .olt main_v39 main_v40
  let main_c_15 : IVec S_ 1 := constantI S_ 1 1#1
  let main_v42 : IVec S_ 1 := (fun x v => Host.reduce IntOp.andi x v reducesTo_S3072x2048_S_d0_1 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  main_v48

def fn_part1 {F : FTy → Type} [FloatOps F] (main_arg4 : FVec F S2048x512 .f32) (main_arg5 : FVec F S2048x512 .f32) (main_arg6 : FVec F S1024x2048 .f32) (main_arg7 : FVec F S2048 .f32) (main_arg8 : FVec F S3072x2048 .f32) (main_arg9 : FVec F S2048 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048x512 .f32 := Host.absf main_arg4
  let main_cst_6 : FVec F S_ .f32 := constant S_ .f32 0x7F800000#32
  let main_v20 : FVec F S2048x512 .f32 := broadcastInDim S2048x512 ![] bcast_S_S2048x512 main_cst_6
  let main_v21 : IVec S2048x512 1 := cmpf .olt main_v19 main_v20
  let main_c_7 : IVec S_ 1 := constantI S_ 1 1#1
  let main_v22 : IVec S_ 1 := (fun x v => Host.reduce IntOp.andi x v reducesTo_S2048x512_S_d0_1 h_S_) main_v21 main_c_7
  let main_v23 : IVec S_ 1 := andi main_v18 main_v22
  let main_v24 : FVec F S2048x512 .f32 := Host.absf main_arg5
  let main_cst_8 : FVec F S_ .f32 := constant S_ .f32 0x7F800000#32
  let main_v25 : FVec F S2048x512 .f32 := broadcastInDim S2048x512 ![] bcast_S_S2048x512 main_cst_8
  let main_v26 : IVec S2048x512 1 := cmpf .olt main_v24 main_v25
  let main_c_9 : IVec S_ 1 := constantI S_ 1 1#1
  let main_v27 : IVec S_ 1 := (fun x v => Host.reduce IntOp.andi x v reducesTo_S2048x512_S_d0_1 h_S_) main_v26 main_c_9
  let main_v28 : IVec S_ 1 := andi main_v23 main_v27
  let main_v29 : FVec F S1024x2048 .f32 := Host.absf main_arg6
  let main_cst_10 : FVec F S_ .f32 := constant S_ .f32 0x7F800000#32
  let main_v30 : FVec F S1024x2048 .f32 := broadcastInDim S1024x2048 ![] bcast_S_S1024x2048 main_cst_10
  let main_v31 : IVec S1024x2048 1 := cmpf .olt main_v29 main_v30
  let main_c_11 : IVec S_ 1 := constantI S_ 1 1#1
  let main_v32 : IVec S_ 1 := (fun x v => Host.reduce IntOp.andi x v reducesTo_S1024x2048_S_d0_1 h_S_) main_v31 main_c_11
  let main_v33 : IVec S_ 1 := andi main_v28 main_v32
  fn_part2 (F := F) main_arg7 main_arg8 main_arg9 main_v33

def fn {F : FTy → Type} [FloatOps F] (main_arg0 : FVec F S4096x2048 .f32) (main_arg1 : FVec F S4096x2048 .f32) (main_arg2 : FVec F S4096x1024 .f32) (main_arg3 : FVec F S2048 .f32) (main_arg4 : FVec F S2048x512 .f32) (main_arg5 : FVec F S2048x512 .f32) (main_arg6 : FVec F S1024x2048 .f32) (main_arg7 : FVec F S2048 .f32) (main_arg8 : FVec F S3072x2048 .f32) (main_arg9 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_arg7 main_arg8 main_arg9 main_v13 main_v16
-- ==== Kernel.lean ====
abbrev S4096x2048 : Shape := ⟨2, ![4096, 2048]⟩
abbrev S4096x1024 : Shape := ⟨2, ![4096, 1024]⟩
abbrev S2048 : Shape := ⟨1, ![2048]⟩
abbrev S2048x512 : Shape := ⟨2, ![2048, 512]⟩
abbrev S1024x2048 : Shape := ⟨2, ![1024, 2048]⟩
abbrev S3072x2048 : Shape := ⟨2, ![3072, 2048]⟩
abbrev S512x2048 : Shape := ⟨2, ![512, 2048]⟩
abbrev S2048x2048 : Shape := ⟨2, ![2048, 2048]⟩
abbrev S1x2048 : Shape := ⟨2, ![1, 2048]⟩
abbrev S128x2048 : Shape := ⟨2, ![128, 2048]⟩
abbrev S128x1024 : Shape := ⟨2, ![128, 1024]⟩
abbrev S128x512 : Shape := ⟨2, ![128, 512]⟩

abbrev nBuf : Space → Nat
  | .hbm => 22
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x1024, .f32⟩
  | .hbm, ⟨3, _⟩ => ⟨S2048, .f32⟩
  | .hbm, ⟨4, _⟩ => ⟨S2048x512, .f32⟩
  | .hbm, ⟨5, _⟩ => ⟨S2048x512, .f32⟩
  | .hbm, ⟨6, _⟩ => ⟨S1024x2048, .f32⟩
  | .hbm, ⟨7, _⟩ => ⟨S2048, .f32⟩
  | .hbm, ⟨8, _⟩ => ⟨S3072x2048, .f32⟩
  | .hbm, ⟨9, _⟩ => ⟨S2048, .f32⟩
  | .hbm, ⟨10, _⟩ => ⟨S2048x512, .bf16⟩
  | .hbm, ⟨11, _⟩ => ⟨S512x2048, .f32⟩
  | .hbm, ⟨12, _⟩ => ⟨S512x2048, .bf16⟩
  | .hbm, ⟨13, _⟩ => ⟨S1024x2048, .bf16⟩
  | .hbm, ⟨14, _⟩ => ⟨S1024x2048, .f32⟩
  | .hbm, ⟨15, _⟩ => ⟨S1024x2048, .bf16⟩
  | .hbm, ⟨16, _⟩ => ⟨S2048x2048, .f32⟩
  | .hbm, ⟨17, _⟩ => ⟨S2048x2048, .bf16⟩
  | .hbm, ⟨18, _⟩ => ⟨S1x2048, .f32⟩
  | .hbm, ⟨19, _⟩ => ⟨S1x2048, .f32⟩
  | .hbm, ⟨20, _⟩ => ⟨S1x2048, .f32⟩
  | .hbm, ⟨21, _⟩ => ⟨S4096x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x1024, .f32⟩
  | .local _ .vmem, ⟨5, _⟩ => ⟨S128x1024, .f32⟩
  | .local _ .vmem, ⟨6, _⟩ => ⟨S1x2048, .f32⟩
  | .local _ .vmem, ⟨7, _⟩ => ⟨S2048x512, .bf16⟩
  | .local _ .vmem, ⟨8, _⟩ => ⟨S512x2048, .bf16⟩
  | .local _ .vmem, ⟨9, _⟩ => ⟨S1024x2048, .bf16⟩
  | .local _ .vmem, ⟨10, _⟩ => ⟨S1x2048, .f32⟩
  | .local _ .vmem, ⟨11, _⟩ => ⟨S1024x2048, .bf16⟩
  | .local _ .vmem, ⟨12, _⟩ => ⟨S2048x2048, .bf16⟩
  | .local _ .vmem, ⟨13, _⟩ => ⟨S1x2048, .f32⟩
  | .local _ .vmem, ⟨14, _⟩ => ⟨S128x2048, .f32⟩
  | .local _ .vmem, ⟨15, _⟩ => ⟨S128x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S128x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bitsLt_bf16_f32 : FTy.bits .bf16 < FTy.bits .f32
  transposes_S2048x512_S512x2048_1_0 : S2048x512.Transposes [1, 0] S512x2048
  slices_S3072x2048_S1024x2048_0_0 : S3072x2048.Slices ![0, 0] S1024x2048
  slices_S3072x2048_S2048x2048_1024_0 : S3072x2048.Slices ![1024, 0] S2048x2048
  shapeCasts_S2048_S1x2048 : S2048.ShapeCasts S1x2048
  inb_S128x2048_S128x2048_0_0 : ∀ a, (![0, 0] : Fin 2 → Nat) a + S128x2048.size a ≤ S128x2048.size a
  h_S128x2048 : 0 < S128x2048.numel
  inb_S128x1024_S128x1024_0_0 : ∀ a, (![0, 0] : Fin 2 → Nat) a + S128x1024.size a ≤ S128x1024.size a
  h_S128x1024 : 0 < S128x1024.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  broadcasts_S1x2048_S128x2048 : S1x2048.Broadcasts S128x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  dot_S128x1024_S1024x2048_S128x2048_1_0_0_1_n_n_wf : DotDims.WF S128x1024 S1024x2048 S128x2048 [1] [0] [0] [1] [] []
  dot_S128x2048_S2048x512_S128x512_1_0_0_1_n_n_wf : DotDims.WF S128x2048 S2048x512 S128x512 [1] [0] [0] [1] [] []
  dot_S128x512_S512x2048_S128x2048_1_0_0_1_n_n_wf : DotDims.WF S128x512 S512x2048 S128x2048 [1] [0] [0] [1] [] []
  dot_S128x2048_S2048x2048_S128x2048_1_0_0_1_n_n_wf : DotDims.WF S128x2048 S2048x2048 S128x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S4096x2048.size a
  hwx0_0 : ∀ i : grid0.Coords, EltTy.bits .f32 = 32 ∨ (Rect.block (s := S4096x2048) S128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S4096x2048.size a
  hwx0_1 : ∀ i : grid0.Coords, EltTy.bits .f32 = 32 ∨ (Rect.block (s := S4096x2048) S128x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S4096x1024.size a
  hwx0_2 : ∀ i : grid0.Coords, EltTy.bits .f32 = 32 ∨ (Rect.block (s := S4096x1024) S128x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S2048x512.size a
  hwx0_4 : ∀ i : grid0.Coords, EltTy.bits .bf16 = 32 ∨ (Rect.block (s := S2048x512) S2048x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S512x2048.size a
  hwx0_5 : ∀ i : grid0.Coords, EltTy.bits .bf16 = 32 ∨ (Rect.block (s := S512x2048) S512x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x2048.size a ≤ S1024x2048.size a
  hwx0_6 : ∀ i : grid0.Coords, EltTy.bits .bf16 = 32 ∨ (Rect.block (s := S1024x2048) S1024x2048.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2048.size a ≤ S1x2048.size a
  hwx0_7 : ∀ i : grid0.Coords, EltTy.bits .f32 = 32 ∨ (Rect.block (s := S1x2048) S1x2048.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x2048.size a ≤ S1024x2048.size a
  hwx0_8 : ∀ i : grid0.Coords, EltTy.bits .bf16 = 32 ∨ (Rect.block (s := S1024x2048) S1024x2048.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2048x2048.size a ≤ S2048x2048.size a
  hwx0_9 : ∀ i : grid0.Coords, EltTy.bits .bf16 = 32 ∨ (Rect.block (s := S2048x2048) S2048x2048.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x2048.size a ≤ S1x2048.size a
  hwx0_10 : ∀ i : grid0.Coords, EltTy.bits .f32 = 32 ∨ (Rect.block (s := S1x2048) S1x2048.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S128x2048.size a ≤ S4096x2048.size a
  hwx0_11 : ∀ i : grid0.Coords, EltTy.bits .f32 = 32 ∨ (Rect.block (s := S4096x2048) S128x2048.size (cc0_transform_11 i) (hinb0_11 i)).WholeWords (EltTy.packing .f32)

variable [Facts₀]

def dot_S128x1024_S1024x2048_S128x2048_1_0_0_1_n_n : DotDims S128x1024 S1024x2048 S128x2048 where
  lhsContracting := [1]
  rhsContracting := [0]
  lhsNonContracting := [0]
  rhsNonContracting := [1]
  lhsBatch := []
  rhsBatch := []
  wf := dot_S128x1024_S1024x2048_S128x2048_1_0_0_1_n_n_wf
def dot_S128x2048_S2048x512_S128x512_1_0_0_1_n_n : DotDims S128x2048 S2048x512 S128x512 where
  lhsContracting := [1]
  rhsContracting := [0]
  lhsNonContracting := [0]
  rhsNonContracting := [1]
  lhsBatch := []
  rhsBatch := []
  wf := dot_S128x2048_S2048x512_S128x512_1_0_0_1_n_n_wf
def dot_S128x512_S512x2048_S128x2048_1_0_0_1_n_n : DotDims S128x512 S512x2048 S128x2048 where
  lhsContracting := [1]
  rhsContracting := [0]
  lhsNonContracting := [0]
  rhsNonContracting := [1]
  lhsBatch := []
  rhsBatch := []
  wf := dot_S128x512_S512x2048_S128x2048_1_0_0_1_n_n_wf
def dot_S128x2048_S2048x2048_S128x2048_1_0_0_1_n_n : DotDims S128x2048 S2048x2048 S128x2048 where
  lhsContracting := [1]
  rhsContracting := [0]
  lhsNonContracting := [0]
  rhsNonContracting := [1]
  lhsBatch := []
  rhsBatch := []
  wf := dot_S128x2048_S2048x2048_S128x2048_1_0_0_1_n_n_wf

abbrev win0_0 : Pipeline.Window sig grid0 :=
  Pipeline.Window.ofSpec (Memref.whole main_arg0) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S2048x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S512x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1024x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1024x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S2048x2048.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v10) S1x2048.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v11) S128x2048.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S4096x1024 : Shape := ⟨2, ![4096, 1024]⟩
abbrev S2048 : Shape := ⟨1, ![2048]⟩
abbrev S2048x512 : Shape := ⟨2, ![2048, 512]⟩
abbrev S1024x2048 : Shape := ⟨2, ![1024, 2048]⟩
abbrev S3072x2048 : Shape := ⟨2, ![3072, 2048]⟩
abbrev S_ : Shape := ⟨0, ![]⟩
abbrev S1x2048 : Shape := ⟨2, ![1, 2048]⟩
abbrev S4096x512 : Shape := ⟨2, ![4096, 512]⟩
abbrev S512x2048 : Shape := ⟨2, ![512, 2048]⟩
abbrev S4096x3072 : Shape := ⟨2, ![4096, 3072]⟩

abbrev nBuf : Space → Nat
  | .hbm => 33
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x1024, .f32⟩
  | .hbm, ⟨3, _⟩ => ⟨S2048, .f32⟩
  | .hbm, ⟨4, _⟩ => ⟨S2048x512, .f32⟩
  | .hbm, ⟨5, _⟩ => ⟨S2048x512, .f32⟩
  | .hbm, ⟨6, _⟩ => ⟨S1024x2048, .f32⟩
  | .hbm, ⟨7, _⟩ => ⟨S2048, .f32⟩
  | .hbm, ⟨8, _⟩ => ⟨S3072x2048, .f32⟩
  | .hbm, ⟨9, _⟩ => ⟨S2048, .f32⟩
  | .hbm, ⟨10, _⟩ => ⟨S2048, .f32⟩
  | .hbm, ⟨11, _⟩ => ⟨S_, .f32⟩
  | .hbm, ⟨12, _⟩ => ⟨S2048, .f32⟩
  | .hbm, ⟨13, _⟩ => ⟨S2048, .f32⟩
  | .hbm, ⟨14, _⟩ => ⟨S4096x2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S1x2048, .f32⟩
  | .hbm, ⟨20, _⟩ => ⟨S4096x2048, .f32⟩
  | .hbm, ⟨21, _⟩ => ⟨S4096x2048, .f32⟩
  | .hbm, ⟨22, _⟩ => ⟨S4096x512, .f32⟩
  | .hbm, ⟨23, _⟩ => ⟨S512x2048, .f32⟩
  | .hbm, ⟨24, _⟩ => ⟨S4096x2048, .f32⟩
  | .hbm, ⟨25, _⟩ => ⟨S4096x2048, .f32⟩
  | .hbm, ⟨26, _⟩ => ⟨S4096x3072, .f32⟩
  | .hbm, ⟨27, _⟩ => ⟨S4096x2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]

class Facts₀ : Prop where
  bcast_S_S2048 : S_.BroadcastsInDim S2048 (![] : Fin 0 → Fin S2048.rank)
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  transposes_S2048x512_S512x2048_1_0 : S2048x512.Transposes [1, 0] S512x2048
  concatenates_S4096x1024_S4096x2048_S4096x3072_d1 : Shape.Concatenates [S4096x1024, S4096x2048] S4096x3072 1
  dot_S4096x1024_S1024x2048_S4096x2048_1_0_0_1_n_n_wf : DotDims.WF S4096x1024 S1024x2048 S4096x2048 [1] [0] [0] [1] [] []
  dot_S4096x2048_S2048x512_S4096x512_1_0_0_1_n_n_wf : DotDims.WF S4096x2048 S2048x512 S4096x512 [1] [0] [0] [1] [] []
  dot_S4096x512_S512x2048_S4096x2048_1_0_0_1_n_n_wf : DotDims.WF S4096x512 S512x2048 S4096x2048 [1] [0] [0] [1] [] []
  dot_S4096x3072_S3072x2048_S4096x2048_1_0_0_1_n_n_wf : DotDims.WF S4096x3072 S3072x2048 S4096x2048 [1] [0] [0] [1] [] []

variable [Facts₀]

def dot_S4096x1024_S1024x2048_S4096x2048_1_0_0_1_n_n : DotDims S4096x1024 S1024x2048 S4096x2048 where
  lhsContracting := [1]
  rhsContracting := [0]
  lhsNonContracting := [0]
  rhsNonContracting := [1]
  lhsBatch := []
  rhsBatch := []
  wf := dot_S4096x1024_S1024x2048_S4096x2048_1_0_0_1_n_n_wf
def dot_S4096x2048_S2048x512_S4096x512_1_0_0_1_n_n : DotDims S4096x2048 S2048x512 S4096x512 where
  lhsContracting := [1]
  rhsContracting := [0]
  lhsNonContracting := [0]
  rhsNonContracting := [1]
  lhsBatch := []
  rhsBatch := []
  wf := dot_S4096x2048_S2048x512_S4096x512_1_0_0_1_n_n_wf
def dot_S4096x512_S512x2048_S4096x2048_1_0_0_1_n_n : DotDims S4096x512 S512x2048 S4096x2048 where
  lhsContracting := [1]
  rhsContracting := [0]
  lhsNonContracting := [0]
  rhsNonContracting := [1]
  lhsBatch := []
  rhsBatch := []
  wf := dot_S4096x512_S512x2048_S4096x2048_1_0_0_1_n_n_wf
def dot_S4096x3072_S3072x2048_S4096x2048_1_0_0_1_n_n : DotDims S4096x3072 S3072x2048 S4096x2048 where
  lhsContracting := [1]
  rhsContracting := [0]
  lhsNonContracting := [0]
  rhsNonContracting := [1]
  lhsBatch := []
  rhsBatch := []
  wf := dot_S4096x3072_S3072x2048_S4096x2048_1_0_0_1_n_n_wf

class Facts : Prop extends Facts₀ where

variable [Facts]
-- ==== Proof.LibAffineRows.lean ====
/-
  A dense layer read row by row, at the ideal values.

  A kernel that tiles the rows of a matrix `X` computes, on each tile `xb`, the product `xb · w` by a matrix unit
  (operands narrowed to bf16, accumulated into zeros) and adds a bias row kept as a `[1, M]` block; the plain program
  computes `X · w` by one `dot_general` and adds the bias vector `[M]` broadcast over the rows. Over the extended reals
  narrowing is the identity and both products are the textbook sum over the contracted index, so row `r` of the tile's
  result is row `n r` of the whole result as soon as row `r` of the tile is row `n r` of `X`
  (`affine_rows`), and the same after a `tanh` (`tanh_affine_rows`). Nothing here depends on the sizes.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Lib

open Idealize.ShloMosaic Idealize.ShloMosaic.ValueIdx

/-- The dimension numbers `d` describe the plain product of an `[R, K]` by a `[K, M]` matrix: one contracted index of
    extent `K`, which is the left operand's column and the right operand's row; the result's row is the left operand's
    row and its column the right operand's column. -/
structure PlainDot {R K M : ℕ} (d : DotDims ⟨2, ![R, K]⟩ ⟨2, ![K, M]⟩ ⟨2, ![R, M]⟩) : Prop where
  rank : d.contr.rank = 1
  size : d.contr.size ⟨0, by omega⟩ = K
  l0 : ∀ (i : (⟨2, ![R, M]⟩ : Shape).Idx) (q : d.contr.Idx), (d.lhsIdx i q 0).val = (i 0).val
  l1 : ∀ (i : (⟨2, ![R, M]⟩ : Shape).Idx) (q : d.contr.Idx), (d.lhsIdx i q 1).val = (q ⟨0, by omega⟩).val
  r0 : ∀ (i : (⟨2, ![R, M]⟩ : Shape).Idx) (q : d.contr.Idx), (d.rhsIdx i q 0).val = (q ⟨0, by omega⟩).val
  r1 : ∀ (i : (⟨2, ![R, M]⟩ : Shape).Idx) (q : d.contr.Idx), (d.rhsIdx i q 1).val = (i 1).val

variable {R K M : ℕ}

/-- The sum over the record's contraction index is the sum over `k < K` of `x (r, k) · w (k, c)`. -/
theorem PlainDot.sum_eq {d : DotDims ⟨2, ![R, K]⟩ ⟨2, ![K, M]⟩ ⟨2, ![R, M]⟩} (h : PlainDot d)
    (x : (⟨2, ![R, K]⟩ : Shape).Idx → EReal) (w : (⟨2, ![K, M]⟩ : Shape).Idx → EReal) (r : Fin R) (c : Fin M) :
    ∑ k : d.contr.Idx, x (d.lhsIdx (ix2 r c) k) * w (d.rhsIdx (ix2 r c) k) = ∑ k : Fin K, x (ix2 r k) * w (ix2 k c) := by
  rw [← Equiv.sum_comp (contrEquiv1 d K h.rank h.size).symm]
  refine Finset.sum_congr rfl fun k _ => ?_
  have hk := contrEquiv1_symm_val d K h.rank h.size k
  have el : d.lhsIdx (ix2 r c) ((contrEquiv1 d K h.rank h.size).symm k) = ix2 r k := funext fun a => Fin.ext (by
    match a with
    | ⟨0, _⟩ => exact h.l0 _ _
    | ⟨1, _⟩ => exact (h.l1 _ _).trans hk)
  have er : d.rhsIdx (ix2 r c) ((contrEquiv1 d K h.rank h.size).symm k) = ix2 k c := funext fun a => Fin.ext (by
    match a with
    | ⟨0, _⟩ => exact (h.r0 _ _).trans hk
    | ⟨1, _⟩ => exact h.r1 _ _)
  rw [el, er]

/-- A matrix unit's product of two narrowed operands into zeros, at `(r, c)`: the textbook sum. -/
theorem matmul_zero_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (ht : FTy.bits .bf16 < FTy.bits .f32)
    (r : Fin R) (c : Fin M) :
    matmul d none (truncf .bf16 x ht) (truncf .bf16 w ht) (constant ⟨2, ![R, M]⟩ .f32 0x00000000#32) (ix2 r c)
      = ∑ k : Fin K, x (ix2 r k) * w (ix2 k c) := by
  simp only [matmul]
  rw [Ideal.matmul_constant_zero_apply]
  exact h.sum_eq (fun i => x i) (fun i => w i) r c

/-- The host's `dot_general` at `(r, c)`: the same sum. -/
theorem dotGeneral_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (r : Fin R) (c : Fin M) :
    Host.dotGeneral d none x w (ix2 r c) = ∑ k : Fin K, x (ix2 r k) * w (ix2 k c) := by
  simp only [Host.dotGeneral]
  rw [Ideal.dotGeneral_apply]
  exact h.sum_eq (fun i => x i) (fun i => w i) r c

/-- A bias vector `[M]` made a row `[1, M]` and then broadcast over `N` rows reads, at `(n, q)`, the vector at `q`. -/
theorem bias_rows_apply {N : ℕ} (b : FVec Ideal ⟨1, ![M]⟩ .f32)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (n : Fin N) (q : Fin M) :
    broadcastInDim ⟨2, ![N, M]⟩ ![0, 1] h2 (broadcastInDim ⟨2, ![1, M]⟩ ![1] h1 b) (ix2 n q) = b (ix1 q) := by
  rw [broadcastInDim_apply _ h2 _ (ix2 n q) (ix2 (0 : Fin 1) q) (fun a => by
    match a with
    | ⟨0, _⟩ => show (0 : ℕ) = if (1 : ℕ) = 1 then 0 else n.val; rw [if_pos rfl]
    | ⟨1, _⟩ => show q.val = if M = 1 then 0 else q.val; split <;> [(have := q.isLt; omega); rfl])]
  exact broadcastInDim_apply _ h1 b (ix2 (0 : Fin 1) q) (ix1 q) (fun a => by
    match a with
    | ⟨0, _⟩ => show q.val = if M = 1 then 0 else q.val; split <;> [(have := q.isLt; omega); rfl])

/-- ROW BY ROW: where row `r` of the tile `xb` is row `n r` of `X` and the bias block's row is the bias vector, the
    tile's `xb · w + bias` at `(r, q)` is the whole `X · w + bias` at `(n r, q)`. -/
theorem affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    addf (matmul dB none (truncf .bf16 xb ht) (truncf .bf16 w ht) (constant ⟨2, ![R, M]⟩ .f32 0x00000000#32))
        (broadcastTo ⟨2, ![R, M]⟩ (shapeCast ⟨2, ![1, M]⟩ b2 hsc) hbc) (ix2 r q)
      = addf (Host.dotGeneral dW none X w) (broadcastInDim ⟨2, ![N, M]⟩ ![0, 1] h2 (broadcastInDim ⟨2, ![1, M]⟩ ![1] h1 b)) (ix2 (n r) q) := by
  rw [addf_apply, addf_apply, matmul_zero_apply hB, dotGeneral_apply hW, bias_rows_apply, broadcastTo_1b_ab_apply,
    shapeCast_self, hb]
  exact congrArg (· + b (ix1 q)) (Finset.sum_congr rfl fun k _ => by rw [hx])

/-- The same after the hyperbolic tangent, the kernel's and the host's being one function of an extended real. -/
theorem tanh_affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    tanh (addf (matmul dB none (truncf .bf16 xb ht) (truncf .bf16 w ht) (constant ⟨2, ![R, M]⟩ .f32 0x00000000#32))
        (broadcastTo ⟨2, ![R, M]⟩ (shapeCast ⟨2, ![1, M]⟩ b2 hsc) hbc)) (ix2 r q)
      = Host.tanh (addf (Host.dotGeneral dW none X w)
          (broadcastInDim ⟨2, ![N, M]⟩ ![0, 1] h2 (broadcastInDim ⟨2, ![1, M]⟩ ![1] h1 b))) (ix2 (n r) q) :=
  congrArg Ideal.tanh (affine_rows hB hW xb X w b2 b n hx hb ht hsc hbc h1 h2 r q)

end Cert.Lib

end
-- ==== Proof.LibStateUpdateRows.lean ====
/-
  The state update `m ⊙ (a ⊙ w + (w · V) · Uᵀ) + ([c | z] · W + b)`, read row by row at the ideal values.

  A kernel that tiles the rows of `w`, `c` and `z` computes, on each tile, the low-rank correction by two chained
  matrix-unit products (operands narrowed to bf16, accumulated into zeros), the diagonal term from a `[1, M]` block of
  the diagonal, and the input term by TWO products, one against the top `Kc` rows of `W` and one against the bottom
  `Kz` rows; the plain program computes the same with whole `dot_general`s and ONE product of the concatenation
  `[c | z]` against the whole `W`. Over the extended reals narrowing is the identity and every product is the textbook
  sum over the contracted index, so all that separates the two is that a sum over `Kc + Kz` indices is the sum over the
  first `Kc` plus the sum over the last `Kz` — which needs nothing of the summands but that addition is associative
  and commutative. Nothing here depends on the sizes.
-/
import proofs.«168639_j43379169689842_1_alg».proof.Proof.LibAffineRows

noncomputable section

namespace Cert.StateUpdate

open Idealize.ShloMosaic Idealize.ShloMosaic.ValueIdx Cert.Lib

variable {R N S M : ℕ}

/-- THE LOW-RANK CORRECTION, row by row: where row `r` of the tile `xb` is row `n r` of `X`, the tile's
    `(xb · v) · u` at `(r, q)` is the whole `(X · v) · u` at `(n r, q)`: both are
    `∑ s, (∑ k, x (·, k) · v (k, s)) · u (s, q)`. -/
theorem lowrank_rows {K : ℕ}
    {d1 : DotDims ⟨2, ![R, K]⟩ ⟨2, ![K, S]⟩ ⟨2, ![R, S]⟩} (h1 : PlainDot d1)
    {d2 : DotDims ⟨2, ![R, S]⟩ ⟨2, ![S, M]⟩ ⟨2, ![R, M]⟩} (h2 : PlainDot d2)
    {e1 : DotDims ⟨2, ![N, K]⟩ ⟨2, ![K, S]⟩ ⟨2, ![N, S]⟩} (g1 : PlainDot e1)
    {e2 : DotDims ⟨2, ![N, S]⟩ ⟨2, ![S, M]⟩ ⟨2, ![N, M]⟩} (g2 : PlainDot e2)
    (xb : FVec Ideal ⟨2, ![R, K]⟩ .f32) (X : FVec Ideal ⟨2, ![N, K]⟩ .f32)
    (v : FVec Ideal ⟨2, ![K, S]⟩ .f32) (u : FVec Ideal ⟨2, ![S, M]⟩ .f32) (n : Fin R → Fin N)
    (hx : ∀ r k, xb (ix2 r k) = X (ix2 (n r) k)) (ht : FTy.bits .bf16 < FTy.bits .f32) (r : Fin R) (q : Fin M) :
    matmul d2 none
        (truncf .bf16 (matmul d1 none (truncf .bf16 xb ht) (truncf .bf16 v ht) (constant ⟨2, ![R, S]⟩ .f32 0x00000000#32)) ht)
        (truncf .bf16 u ht) (constant ⟨2, ![R, M]⟩ .f32 0x00000000#32) (ix2 r q)
      = Host.dotGeneral e2 none (Host.dotGeneral e1 none X v) u (ix2 (n r) q) := by
  rw [matmul_zero_apply h2, Cert.Lib.dotGeneral_apply g2]
  refine Finset.sum_congr rfl fun s _ => ?_
  rw [matmul_zero_apply h1, Cert.Lib.dotGeneral_apply g1]
  exact congrArg (· * u (ix2 s q)) (Finset.sum_congr rfl fun k _ => by rw [hx])

/-- THE DIAGONAL TERM, row by row: the tile scales its rows by `tanh` of the diagonal's `[1, M]` block times a
    constant, the plain program by `tanh` of the diagonal vector `[M]` times the same constant, broadcast over
    the rows: at `(r, q)` and `(n r, q)` both are `(tanh (a q) · κ) · x`. -/
theorem diag_rows (a2 : FVec Ideal ⟨2, ![1, M]⟩ .f32) (a : FVec Ideal ⟨1, ![M]⟩ .f32)
    (xb : FVec Ideal ⟨2, ![R, M]⟩ .f32) (X : FVec Ideal ⟨2, ![N, M]⟩ .f32) (n : Fin R → Fin N) (κ : BitVec 32)
    (ha : ∀ q : Fin M, a2 (ix2 (0 : Fin 1) q) = a (ix1 q)) (hx : ∀ r q, xb (ix2 r q) = X (ix2 (n r) q))
    (hsc : (⟨2, ![1, M]⟩ : Shape).ShapeCasts ⟨2, ![1, M]⟩) (hbc : (⟨2, ![1, M]⟩ : Shape).Broadcasts ⟨2, ![R, M]⟩)
    (h0 : (⟨0, ![]⟩ : Shape).BroadcastsInDim ⟨1, ![M]⟩ (![] : Fin 0 → Fin 1))
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    mulf (broadcastTo ⟨2, ![R, M]⟩
          (mulf (tanh (shapeCast ⟨2, ![1, M]⟩ a2 hsc)) (broadcast ⟨2, ![1, M]⟩ (Scalar.ofBits (F := Ideal) .f32 κ))) hbc) xb (ix2 r q)
      = mulf (broadcastInDim ⟨2, ![N, M]⟩ ![0, 1] h2 (broadcastInDim ⟨2, ![1, M]⟩ ![1] h1
          (mulf (Host.tanh a) (broadcastInDim ⟨1, ![M]⟩ ![] h0 (constant ⟨0, ![]⟩ .f32 κ))))) X (ix2 (n r) q) := by
  rw [mulf_apply, mulf_apply, broadcastTo_1b_ab_apply, bias_rows_apply, hx, mulf_apply, mulf_apply, shapeCast_self,
    broadcastInDim_apply _ h0 _ (ix1 q) ix0 (fun b => b.elim0)]
  show Ideal.tanh (a2 (ix2 (0 : Fin 1) q)) * _ * _ = Ideal.tanh (a (ix1 q)) * _ * _
  rw [ha]
  rfl

/-- THE INPUT TERM, row by row: the tile's `cb · W[0 : Kc] + zb · W[Kc : Kc + Kz]` at `(r, q)` is the whole
    `[C | Z] · W` at `(n r, q)`. The whole product's sum over `Kc + Kz` contracted indices splits at `Kc`; the
    first part reads `C` and the top rows of `W`, the second `Z` and the bottom rows. -/
theorem split_rows {Kc Kz K : ℕ} (hK : K = Kc + Kz)
    {dc : DotDims ⟨2, ![R, Kc]⟩ ⟨2, ![Kc, M]⟩ ⟨2, ![R, M]⟩} (hc : PlainDot dc)
    {dz : DotDims ⟨2, ![R, Kz]⟩ ⟨2, ![Kz, M]⟩ ⟨2, ![R, M]⟩} (hz : PlainDot dz)
    {dW : DotDims ⟨2, ![N, K]⟩ ⟨2, ![K, M]⟩ ⟨2, ![N, M]⟩} (hW : PlainDot dW)
    (cb : FVec Ideal ⟨2, ![R, Kc]⟩ .f32) (C : FVec Ideal ⟨2, ![N, Kc]⟩ .f32)
    (zb : FVec Ideal ⟨2, ![R, Kz]⟩ .f32) (Z : FVec Ideal ⟨2, ![N, Kz]⟩ .f32)
    (W : FVec Ideal ⟨2, ![K, M]⟩ .f32) (n : Fin R → Fin N)
    (hcb : ∀ r k, cb (ix2 r k) = C (ix2 (n r) k)) (hzb : ∀ r k, zb (ix2 r k) = Z (ix2 (n r) k))
    (ht : FTy.bits .bf16 < FTy.bits .f32)
    (hs1 : (⟨2, ![K, M]⟩ : Shape).Slices ![0, 0] ⟨2, ![Kc, M]⟩)
    (hs2 : (⟨2, ![K, M]⟩ : Shape).Slices ![Kc, 0] ⟨2, ![Kz, M]⟩)
    (hcat : Shape.Concatenates [⟨2, ![N, Kc]⟩, ⟨2, ![N, Kz]⟩] ⟨2, ![N, K]⟩ 1) (r : Fin R) (q : Fin M) :
    addf (matmul dc none (truncf .bf16 cb ht) (truncf .bf16 (extractStridedSlice ⟨2, ![Kc, M]⟩ ![0, 0] W hs1) ht)
            (constant ⟨2, ![R, M]⟩ .f32 0x00000000#32))
         (matmul dz none (truncf .bf16 zb ht) (truncf .bf16 (extractStridedSlice ⟨2, ![Kz, M]⟩ ![Kc, 0] W hs2) ht)
            (constant ⟨2, ![R, M]⟩ .f32 0x00000000#32)) (ix2 r q)
      = Host.dotGeneral dW none
          (concatenate ⟨2, ![N, K]⟩ 1 [⟨⟨2, ![N, Kc]⟩, C⟩, ⟨⟨2, ![N, Kz]⟩, Z⟩] hcat) W (ix2 (n r) q) := by
  subst hK
  rw [addf_apply, matmul_zero_apply hc, matmul_zero_apply hz, Cert.Lib.dotGeneral_apply hW, Fin.sum_univ_add]
  refine congrArg₂ (· + ·) (Finset.sum_congr rfl fun k _ => ?_) (Finset.sum_congr rfl fun k _ => ?_)
  · rw [hcb, extractStridedSlice_apply ![0, 0] W hs1 (ix2 k q) (ix2 (Fin.castAdd Kz k) q) (fun b => by
        match b with
        | ⟨0, _⟩ => exact (Nat.zero_add _).symm
        | ⟨1, _⟩ => exact (Nat.zero_add _).symm),
      concatenate_pair_apply_left (1 : Fin 2) C Z hcat (ix2 (n r) (Fin.castAdd Kz k)) rfl (ix2 (n r) k) (fun b => by
        match b with
        | ⟨0, _⟩ => rfl
        | ⟨1, _⟩ => rfl)]
  · rw [hzb, extractStridedSlice_apply ![Kc, 0] W hs2 (ix2 k q) (ix2 (Fin.natAdd Kc k) q) (fun b => by
        match b with
        | ⟨0, _⟩ => rfl
        | ⟨1, _⟩ => exact (Nat.zero_add _).symm),
      concatenate_pair_apply_right (1 : Fin 2) C Z hcat (ix2 (n r) (Fin.natAdd Kc k)) rfl rfl (ix2 (n r) k) (fun b hb => by
        match b with
        | ⟨0, _⟩ => rfl
        | ⟨1, _⟩ => exact absurd rfl hb) (by show k.val + Kc = Kc + k.val; omega)]

end Cert.StateUpdate

end
-- ==== Proof.Records.lean ====
/-
  Every matrix product of the two programs is a PLAIN one: one contracted index, the left operand's column and the
  right operand's row; the result's row is the left operand's row and its column the right operand's column. For the
  tile's four matrix-unit products this is read off the dimension numbers axis by axis; for the plain program's four
  `dot_general`s the four axis facts are the ones stated beside its run, read at an index.
-/
import proofs.«168639_j43379169689842_1_alg».proof.Proof.Gen.KernelIdeal
import proofs.«168639_j43379169689842_1_alg».proof.Proof.Gen.ReferenceIdeal.Read
import proofs.«168639_j43379169689842_1_alg».proof.Proof.LibAffineRows

noncomputable section

namespace Cert.StateUpdate.Records

open Idealize.ShloMosaic Cert.Lib

/-! ## The tile's products -/

section Tile
open Cert.KernelIdeal

theorem tile_cW_l0 (i : S128x2048.Idx) (q : dot_S128x1024_S1024x2048_S128x2048_1_0_0_1_n_n.contr.Idx) : (dot_S128x1024_S1024x2048_S128x2048_1_0_0_1_n_n.lhsIdx i q 0).val = (i 0).val := by
  unfold DotDims.lhsIdx
  rw [dif_neg (show ¬(0 : Fin S128x1024.rank) ∈ dot_S128x1024_S1024x2048_S128x2048_1_0_0_1_n_n.lhsBatch by decide), dif_pos (show (0 : Fin S128x1024.rank) ∈ dot_S128x1024_S1024x2048_S128x2048_1_0_0_1_n_n.lhsNonContracting by decide)]
  rfl
theorem tile_cW_l1 (i : S128x2048.Idx) (q : dot_S128x1024_S1024x2048_S128x2048_1_0_0_1_n_n.contr.Idx) : (dot_S128x1024_S1024x2048_S128x2048_1_0_0_1_n_n.lhsIdx i q 1).val = (q ⟨0, by decide⟩).val :=
  dot_S128x1024_S1024x2048_S128x2048_1_0_0_1_n_n.lhsIdx_val_of_single rfl i q
theorem tile_cW_r0 (i : S128x2048.Idx) (q : dot_S128x1024_S1024x2048_S128x2048_1_0_0_1_n_n.contr.Idx) : (dot_S128x1024_S1024x2048_S128x2048_1_0_0_1_n_n.rhsIdx i q 0).val = (q ⟨0, by decide⟩).val :=
  dot_S128x1024_S1024x2048_S128x2048_1_0_0_1_n_n.rhsIdx_val_of_single rfl i q
theorem tile_cW_r1 (i : S128x2048.Idx) (q : dot_S128x1024_S1024x2048_S128x2048_1_0_0_1_n_n.contr.Idx) : (dot_S128x1024_S1024x2048_S128x2048_1_0_0_1_n_n.rhsIdx i q 1).val = (i 1).val := by
  unfold DotDims.rhsIdx
  rw [dif_neg (show ¬(1 : Fin S1024x2048.rank) ∈ dot_S128x1024_S1024x2048_S128x2048_1_0_0_1_n_n.rhsBatch by decide), dif_pos (show (1 : Fin S1024x2048.rank) ∈ dot_S128x1024_S1024x2048_S128x2048_1_0_0_1_n_n.rhsNonContracting by decide)]
  rfl
/-- The tile's product `S128x1024 · S1024x2048` is plain. -/
theorem tile_cW : PlainDot dot_S128x1024_S1024x2048_S128x2048_1_0_0_1_n_n := ⟨rfl, rfl, tile_cW_l0, tile_cW_l1, tile_cW_r0, tile_cW_r1⟩

theorem tile_wV_l0 (i : S128x512.Idx) (q : dot_S128x2048_S2048x512_S128x512_1_0_0_1_n_n.contr.Idx) : (dot_S128x2048_S2048x512_S128x512_1_0_0_1_n_n.lhsIdx i q 0).val = (i 0).val := by
  unfold DotDims.lhsIdx
  rw [dif_neg (show ¬(0 : Fin S128x2048.rank) ∈ dot_S128x2048_S2048x512_S128x512_1_0_0_1_n_n.lhsBatch by decide), dif_pos (show (0 : Fin S128x2048.rank) ∈ dot_S128x2048_S2048x512_S128x512_1_0_0_1_n_n.lhsNonContracting by decide)]
  rfl
theorem tile_wV_l1 (i : S128x512.Idx) (q : dot_S128x2048_S2048x512_S128x512_1_0_0_1_n_n.contr.Idx) : (dot_S128x2048_S2048x512_S128x512_1_0_0_1_n_n.lhsIdx i q 1).val = (q ⟨0, by decide⟩).val :=
  dot_S128x2048_S2048x512_S128x512_1_0_0_1_n_n.lhsIdx_val_of_single rfl i q
theorem tile_wV_r0 (i : S128x512.Idx) (q : dot_S128x2048_S2048x512_S128x512_1_0_0_1_n_n.contr.Idx) : (dot_S128x2048_S2048x512_S128x512_1_0_0_1_n_n.rhsIdx i q 0).val = (q ⟨0, by decide⟩).val :=
  dot_S128x2048_S2048x512_S128x512_1_0_0_1_n_n.rhsIdx_val_of_single rfl i q
theorem tile_wV_r1 (i : S128x512.Idx) (q : dot_S128x2048_S2048x512_S128x512_1_0_0_1_n_n.contr.Idx) : (dot_S128x2048_S2048x512_S128x512_1_0_0_1_n_n.rhsIdx i q 1).val = (i 1).val := by
  unfold DotDims.rhsIdx
  rw [dif_neg (show ¬(1 : Fin S2048x512.rank) ∈ dot_S128x2048_S2048x512_S128x512_1_0_0_1_n_n.rhsBatch by decide), dif_pos (show (1 : Fin S2048x512.rank) ∈ dot_S128x2048_S2048x512_S128x512_1_0_0_1_n_n.rhsNonContracting by decide)]
  rfl
/-- The tile's product `S128x2048 · S2048x512` is plain. -/
theorem tile_wV : PlainDot dot_S128x2048_S2048x512_S128x512_1_0_0_1_n_n := ⟨rfl, rfl, tile_wV_l0, tile_wV_l1, tile_wV_r0, tile_wV_r1⟩

theorem tile_pU_l0 (i : S128x2048.Idx) (q : dot_S128x512_S512x2048_S128x2048_1_0_0_1_n_n.contr.Idx) : (dot_S128x512_S512x2048_S128x2048_1_0_0_1_n_n.lhsIdx i q 0).val = (i 0).val := by
  unfold DotDims.lhsIdx
  rw [dif_neg (show ¬(0 : Fin S128x512.rank) ∈ dot_S128x512_S512x2048_S128x2048_1_0_0_1_n_n.lhsBatch by decide), dif_pos (show (0 : Fin S128x512.rank) ∈ dot_S128x512_S512x2048_S128x2048_1_0_0_1_n_n.lhsNonContracting by decide)]
  rfl
theorem tile_pU_l1 (i : S128x2048.Idx) (q : dot_S128x512_S512x2048_S128x2048_1_0_0_1_n_n.contr.Idx) : (dot_S128x512_S512x2048_S128x2048_1_0_0_1_n_n.lhsIdx i q 1).val = (q ⟨0, by decide⟩).val :=
  dot_S128x512_S512x2048_S128x2048_1_0_0_1_n_n.lhsIdx_val_of_single rfl i q
theorem tile_pU_r0 (i : S128x2048.Idx) (q : dot_S128x512_S512x2048_S128x2048_1_0_0_1_n_n.contr.Idx) : (dot_S128x512_S512x2048_S128x2048_1_0_0_1_n_n.rhsIdx i q 0).val = (q ⟨0, by decide⟩).val :=
  dot_S128x512_S512x2048_S128x2048_1_0_0_1_n_n.rhsIdx_val_of_single rfl i q
theorem tile_pU_r1 (i : S128x2048.Idx) (q : dot_S128x512_S512x2048_S128x2048_1_0_0_1_n_n.contr.Idx) : (dot_S128x512_S512x2048_S128x2048_1_0_0_1_n_n.rhsIdx i q 1).val = (i 1).val := by
  unfold DotDims.rhsIdx
  rw [dif_neg (show ¬(1 : Fin S512x2048.rank) ∈ dot_S128x512_S512x2048_S128x2048_1_0_0_1_n_n.rhsBatch by decide), dif_pos (show (1 : Fin S512x2048.rank) ∈ dot_S128x512_S512x2048_S128x2048_1_0_0_1_n_n.rhsNonContracting by decide)]
  rfl
/-- The tile's product `S128x512 · S512x2048` is plain. -/
theorem tile_pU : PlainDot dot_S128x512_S512x2048_S128x2048_1_0_0_1_n_n := ⟨rfl, rfl, tile_pU_l0, tile_pU_l1, tile_pU_r0, tile_pU_r1⟩

theorem tile_zW_l0 (i : S128x2048.Idx) (q : dot_S128x2048_S2048x2048_S128x2048_1_0_0_1_n_n.contr.Idx) : (dot_S128x2048_S2048x2048_S128x2048_1_0_0_1_n_n.lhsIdx i q 0).val = (i 0).val := by
  unfold DotDims.lhsIdx
  rw [dif_neg (show ¬(0 : Fin S128x2048.rank) ∈ dot_S128x2048_S2048x2048_S128x2048_1_0_0_1_n_n.lhsBatch by decide), dif_pos (show (0 : Fin S128x2048.rank) ∈ dot_S128x2048_S2048x2048_S128x2048_1_0_0_1_n_n.lhsNonContracting by decide)]
  rfl
theorem tile_zW_l1 (i : S128x2048.Idx) (q : dot_S128x2048_S2048x2048_S128x2048_1_0_0_1_n_n.contr.Idx) : (dot_S128x2048_S2048x2048_S128x2048_1_0_0_1_n_n.lhsIdx i q 1).val = (q ⟨0, by decide⟩).val :=
  dot_S128x2048_S2048x2048_S128x2048_1_0_0_1_n_n.lhsIdx_val_of_single rfl i q
theorem tile_zW_r0 (i : S128x2048.Idx) (q : dot_S128x2048_S2048x2048_S128x2048_1_0_0_1_n_n.contr.Idx) : (dot_S128x2048_S2048x2048_S128x2048_1_0_0_1_n_n.rhsIdx i q 0).val = (q ⟨0, by decide⟩).val :=
  dot_S128x2048_S2048x2048_S128x2048_1_0_0_1_n_n.rhsIdx_val_of_single rfl i q
theorem tile_zW_r1 (i : S128x2048.Idx) (q : dot_S128x2048_S2048x2048_S128x2048_1_0_0_1_n_n.contr.Idx) : (dot_S128x2048_S2048x2048_S128x2048_1_0_0_1_n_n.rhsIdx i q 1).val = (i 1).val := by
  unfold DotDims.rhsIdx
  rw [dif_neg (show ¬(1 : Fin S2048x2048.rank) ∈ dot_S128x2048_S2048x2048_S128x2048_1_0_0_1_n_n.rhsBatch by decide), dif_pos (show (1 : Fin S2048x2048.rank) ∈ dot_S128x2048_S2048x2048_S128x2048_1_0_0_1_n_n.rhsNonContracting by decide)]
  rfl
/-- The tile's product `S128x2048 · S2048x2048` is plain. -/
theorem tile_zW : PlainDot dot_S128x2048_S2048x2048_S128x2048_1_0_0_1_n_n := ⟨rfl, rfl, tile_zW_l0, tile_zW_l1, tile_zW_r0, tile_zW_r1⟩

end Tile

/-! ## The plain program's products -/

section Whole
open Cert.ReferenceIdeal Cert.ReferenceIdeal.Read

/-- The plain program's product `dot_S4096x1024_S1024x2048_S4096x2048_1_0_0_1_n_n` is plain. -/
theorem whole_cW : PlainDot dot_S4096x1024_S1024x2048_S4096x2048_1_0_0_1_n_n := ⟨rfl, rfl, lhs_main_v3_0, lhs_main_v3_1, rhs_main_v3_0, rhs_main_v3_1⟩

/-- The plain program's product `dot_S4096x2048_S2048x512_S4096x512_1_0_0_1_n_n` is plain. -/
theorem whole_wV : PlainDot dot_S4096x2048_S2048x512_S4096x512_1_0_0_1_n_n := ⟨rfl, rfl, lhs_main_v11_0, lhs_main_v11_1, rhs_main_v11_0, rhs_main_v11_1⟩

/-- The plain program's product `dot_S4096x512_S512x2048_S4096x2048_1_0_0_1_n_n` is plain. -/
theorem whole_pU : PlainDot dot_S4096x512_S512x2048_S4096x2048_1_0_0_1_n_n := ⟨rfl, rfl, lhs_main_v13_0, lhs_main_v13_1, rhs_main_v13_0, rhs_main_v13_1⟩

/-- The plain program's product `dot_S4096x3072_S3072x2048_S4096x2048_1_0_0_1_n_n` is plain. -/
theorem whole_catW : PlainDot dot_S4096x3072_S3072x2048_S4096x2048_1_0_0_1_n_n := ⟨rfl, rfl, lhs_main_v16_0, lhs_main_v16_1, rhs_main_v16_0, rhs_main_v16_1⟩

end Whole

end Cert.StateUpdate.Records

end
-- ==== Proof.Spec.lean ====
/-
  The plain program's result as ONE function of its ten arguments:
  `update w z c ad au av wm bm wb bb = tanh (c · wm + bm) ⊙ ((tanh ad · κ) ⊙ w + (w · av) · auᵀ) + ([c | z] · wb + bb)`,
  written with the host's own operations, so that the plain program's run ends at it literally.
-/
import proofs.«168639_j43379169689842_1_alg».proof.Proof.Gen.ReferenceIdeal

noncomputable section

namespace Cert.StateUpdate

open Idealize.ShloMosaic Cert.ReferenceIdeal Cert.ReferenceIdeal.Gen

variable {F : FTy → Type} [FloatOps F]

/-- The modulated low-rank-plus-diagonal state update of every row, plus the input term. -/
def update (w z : FVec F S4096x2048 .f32) (c : FVec F S4096x1024 .f32) (ad : FVec F S2048 .f32)
    (au av : FVec F S2048x512 .f32) (wm : FVec F S1024x2048 .f32) (bm : FVec F S2048 .f32)
    (wb : FVec F S3072x2048 .f32) (bb : FVec F S2048 .f32) : FVec F S4096x2048 .f32 :=
  addf
    (mulf
      (Host.tanh (addf (Host.dotGeneral dot_S4096x1024_S1024x2048_S4096x2048_1_0_0_1_n_n none c wm)
        (broadcastInDim S4096x2048 ![0, 1] bcast_S1x2048_S4096x2048_0_1 (broadcastInDim S1x2048 ![1] bcast_S2048_S1x2048_1 bm))))
      (addf
        (mulf (broadcastInDim S4096x2048 ![0, 1] bcast_S1x2048_S4096x2048_0_1 (broadcastInDim S1x2048 ![1] bcast_S2048_S1x2048_1
          (mulf (Host.tanh ad) (broadcastInDim S2048 ![] bcast_S_S2048 (constant S_ .f32 0x3F666666#32))))) w)
        (Host.dotGeneral dot_S4096x512_S512x2048_S4096x2048_1_0_0_1_n_n none
          (Host.dotGeneral dot_S4096x2048_S2048x512_S4096x512_1_0_0_1_n_n none w av)
          (transpose S512x2048 [1, 0] au transposes_S2048x512_S512x2048_1_0))))
    (addf
      (Host.dotGeneral dot_S4096x3072_S3072x2048_S4096x2048_1_0_0_1_n_n none
        (concatenate S4096x3072 1 [⟨S4096x1024, c⟩, ⟨S4096x2048, z⟩] concatenates_S4096x1024_S4096x2048_S4096x3072_d1) wb)
      (broadcastInDim S4096x2048 ![0, 1] bcast_S1x2048_S4096x2048_0_1 (broadcastInDim S1x2048 ![1] bcast_S2048_S1x2048_1 bb)))

end Cert.StateUpdate

end
-- ==== Proof.TileValue.lean ====
/-
  ONE TILE of the kernel is 128 rows of the plain program's result.

  The kernel's body, on the blocks it loads — 128 rows of `w`, `z` and `c`, the whole narrowed weight matrices, and
  the three `[1, 2048]` rows holding the diagonal and the two biases — stores a block whose entry `(r, q)` is the
  plain program's result at `(n r, q)`, where `n r` is the row of the whole arrays that row `r` of the blocks is.
  The four parts are the row-by-row lemmas: the modulation (a dense layer under `tanh`), the diagonal term, the
  low-rank correction, and the input term, whose one product over `[c | z]` the kernel computes as two.
-/
import proofs.«168639_j43379169689842_1_alg».proof.Proof.Gen.KernelIdeal.Skeleton
import proofs.«168639_j43379169689842_1_alg».proof.Proof.LibStateUpdateRows
import proofs.«168639_j43379169689842_1_alg».proof.Proof.Records
import proofs.«168639_j43379169689842_1_alg».proof.Proof.Spec

noncomputable section

namespace Cert.StateUpdate

open Idealize.ShloMosaic Idealize.ShloMosaic.ValueIdx Cert.Lib Cert.KernelIdeal Cert.KernelIdeal.Gen

/-- Entry `(r, q)` of the block the body stores is the plain program's result at `(n r, q)`. -/
theorem tile_eq
    (x0 x1 : Vec Ideal S128x2048 .f32) (x2 : Vec Ideal S128x1024 .f32) (x3 : Vec Ideal S1x2048 .f32)
    (x4 : Vec Ideal S2048x512 .bf16) (x5 : Vec Ideal S512x2048 .bf16) (x6 : Vec Ideal S1024x2048 .bf16)
    (x7 : Vec Ideal S1x2048 .f32) (x8 : Vec Ideal S1024x2048 .bf16) (x9 : Vec Ideal S2048x2048 .bf16)
    (x10 : Vec Ideal S1x2048 .f32)
    (w z : FVec Ideal S4096x2048 .f32) (c : FVec Ideal S4096x1024 .f32) (ad : FVec Ideal S2048 .f32)
    (au av : FVec Ideal S2048x512 .f32) (wm : FVec Ideal S1024x2048 .f32) (bm : FVec Ideal S2048 .f32)
    (wb : FVec Ideal S3072x2048 .f32) (bb : FVec Ideal S2048 .f32)
    (n : Fin 128 → Fin 4096)
    (h0 : ∀ r k, x0 (ix2 r k) = w (ix2 (n r) k)) (h1 : ∀ r k, x1 (ix2 r k) = z (ix2 (n r) k))
    (h2 : ∀ r k, x2 (ix2 r k) = c (ix2 (n r) k))
    (h3 : ∀ q : Fin 2048, x3 (ix2 (0 : Fin 1) q) = ad (ix1 q))
    (h4 : x4 = truncf .bf16 av bitsLt_bf16_f32)
    (h5 : x5 = truncf .bf16 (transpose S512x2048 [1, 0] au transposes_S2048x512_S512x2048_1_0) bitsLt_bf16_f32)
    (h6 : x6 = truncf .bf16 wm bitsLt_bf16_f32)
    (h7 : ∀ q : Fin 2048, x7 (ix2 (0 : Fin 1) q) = bm (ix1 q))
    (h8 : x8 = truncf .bf16 (extractStridedSlice S1024x2048 ![0, 0] wb slices_S3072x2048_S1024x2048_0_0) bitsLt_bf16_f32)
    (h9 : x9 = truncf .bf16 (extractStridedSlice S2048x2048 ![1024, 0] wb slices_S3072x2048_S2048x2048_1024_0) bitsLt_bf16_f32)
    (h10 : ∀ q : Fin 2048, x10 (ix2 (0 : Fin 1) q) = bb (ix1 q))
    (r : Fin 128) (q : Fin 2048) :
    k0_pay1 (k0_pay3 x1) (k0_pay4 x2 x6 x7) (k0_pay5 x0 x3 x4 x5) (k0_pay6 x2 x8) (k0_pay7 x9) x10 (ix2 r q)
      = update w z c ad au av wm bm wb bb (ix2 (n r) q) := by
  subst h4 h5 h6 h8 h9
  have hA := tanh_affine_rows Records.tile_cW Records.whole_cW x2 c wm x7 bm n h2 h7 bitsLt_bf16_f32
    shapeCasts_S1x2048_S1x2048 broadcasts_S1x2048_S128x2048 Cert.ReferenceIdeal.Gen.bcast_S2048_S1x2048_1
    Cert.ReferenceIdeal.Gen.bcast_S1x2048_S4096x2048_0_1 r q
  have hB1 := diag_rows x3 ad x0 w n 0x3F666666#32 h3 h0 shapeCasts_S1x2048_S1x2048 broadcasts_S1x2048_S128x2048
    Cert.ReferenceIdeal.Gen.bcast_S_S2048 Cert.ReferenceIdeal.Gen.bcast_S2048_S1x2048_1
    Cert.ReferenceIdeal.Gen.bcast_S1x2048_S4096x2048_0_1 r q
  have hB2 := lowrank_rows Records.tile_wV Records.tile_pU Records.whole_wV Records.whole_pU x0 w av
    (transpose S512x2048 [1, 0] au transposes_S2048x512_S512x2048_1_0) n h0 bitsLt_bf16_f32 r q
  have hC := split_rows (Kc := 1024) (Kz := 2048) (K := 3072) rfl Records.tile_cW Records.tile_zW Records.whole_catW
    x2 c x1 z wb n h2 h1 bitsLt_bf16_f32 slices_S3072x2048_S1024x2048_0_0 slices_S3072x2048_S2048x2048_1024_0
    Cert.ReferenceIdeal.Gen.concatenates_S4096x1024_S4096x2048_S4096x3072_d1 r q
  have hD : broadcastTo S128x2048 (shapeCast S1x2048 x10 shapeCasts_S1x2048_S1x2048) broadcasts_S1x2048_S128x2048 (ix2 r q)
      = broadcastInDim Cert.ReferenceIdeal.S4096x2048 ![0, 1] Cert.ReferenceIdeal.Gen.bcast_S1x2048_S4096x2048_0_1
          (broadcastInDim Cert.ReferenceIdeal.S1x2048 ![1] Cert.ReferenceIdeal.Gen.bcast_S2048_S1x2048_1 bb) (ix2 (n r) q) := by
    rw [broadcastTo_1b_ab_apply, shapeCast_self, h10, bias_rows_apply]
  unfold k0_pay1 k0_pay3 k0_pay4 k0_pay5 k0_pay6 k0_pay7 k0_pay2 update
  rw [shapeCast_self (truncf .bf16 wm bitsLt_bf16_f32), shapeCast_self (truncf .bf16 av bitsLt_bf16_f32),
    shapeCast_self (truncf .bf16 (transpose S512x2048 [1, 0] au transposes_S2048x512_S512x2048_1_0) bitsLt_bf16_f32),
    shapeCast_self (truncf .bf16 (extractStridedSlice S1024x2048 ![0, 0] wb slices_S3072x2048_S1024x2048_0_0) bitsLt_bf16_f32),
    shapeCast_self (truncf .bf16 (extractStridedSlice S2048x2048 ![1024, 0] wb slices_S3072x2048_S2048x2048_1024_0) bitsLt_bf16_f32)]
  exact congrArg₂ (· + ·) (congrArg₂ (· * ·) hA (congrArg₂ (· + ·) hB1 hB2)) (congrArg₂ (· + ·) hC hD)

end Cert.StateUpdate

end
-- ==== Proof.KernelValue.lean ====
/-
  The kernel's run, read: after it the result array holds the plain program's `update` of the ten argument arrays.

  The grid has 32 points; point `t` works on rows `128 t … 128 t + 127`. Its blocks of `w`, `z` and `c` are those rows
  of the arguments; its blocks of the five weight matrices are the WHOLE matrices the host prepared before the launch
  (narrowed to bf16, `A_U` transposed first, `W_B` cut at row 1024 first); its three `[1, 2048]` blocks are the diagonal
  and the two biases, reshaped by the host. So by the tile lemma point `t` writes back rows `128 t … 128 t + 127` of
  `update`, and the 32 row blocks cover the array.
-/
import proofs.«168639_j43379169689842_1_alg».proof.Proof.Gen.KernelIdeal.Value
import proofs.«168639_j43379169689842_1_alg».proof.Proof.TileValue
import Idealize.ShloMosaic.Lib.Pipeline.Value
import Idealize.ShloMosaic.Lib.StableHlo.Run
import Idealize.ShloMosaic.Lib.Tactic

noncomputable section

namespace Cert.StateUpdate

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- What the result array holds after the run: the plain program's function of the ten arguments as launched. -/
abbrev result (c : Dev nD) : Buf (Elt Ideal) ((c : Thread nD τ).loc main_v11) :=
  update (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-! ## The arrays the host prepared before the launch -/

/-- `A_V` narrowed. -/
theorem arr_av (c : Dev nD) : (V m c main_v0 : Vec Ideal S2048x512 .bf16) = truncf (F := Ideal) .bf16 (m ((c : Thread nD τ).loc main_arg5)) bitsLt_bf16_f32 := by
  dsimp only [V, hostOps0]; after_results
/-- `A_U` transposed, then narrowed. -/
theorem arr_ut (c : Dev nD) : (V m c main_v2 : Vec Ideal S512x2048 .bf16)
    = truncf (F := Ideal) .bf16 (transpose S512x2048 [1, 0] (m ((c : Thread nD τ).loc main_arg4)) transposes_S2048x512_S512x2048_1_0) bitsLt_bf16_f32 := by
  dsimp only [V, hostOps0]; after_results
/-- `W_mod` narrowed. -/
theorem arr_wm (c : Dev nD) : (V m c main_v3 : Vec Ideal S1024x2048 .bf16) = truncf (F := Ideal) .bf16 (m ((c : Thread nD τ).loc main_arg6)) bitsLt_bf16_f32 := by
  dsimp only [V, hostOps0]; after_results
/-- The top 1024 rows of `W_B`, narrowed. -/
theorem arr_wc (c : Dev nD) : (V m c main_v5 : Vec Ideal S1024x2048 .bf16)
    = truncf (F := Ideal) .bf16 (extractStridedSlice S1024x2048 ![0, 0] (m ((c : Thread nD τ).loc main_arg8)) slices_S3072x2048_S1024x2048_0_0) bitsLt_bf16_f32 := by
  dsimp only [V, hostOps0]; after_results
/-- The bottom 2048 rows of `W_B`, narrowed. -/
theorem arr_wz (c : Dev nD) : (V m c main_v7 : Vec Ideal S2048x2048 .bf16)
    = truncf (F := Ideal) .bf16 (extractStridedSlice S2048x2048 ![1024, 0] (m ((c : Thread nD τ).loc main_arg8)) slices_S3072x2048_S2048x2048_1024_0) bitsLt_bf16_f32 := by
  dsimp only [V, hostOps0]; after_results
/-- The diagonal as a row. -/
theorem arr_ad (c : Dev nD) : (V m c main_v8 : Vec Ideal S1x2048 .f32) = shapeCast S1x2048 (m ((c : Thread nD τ).loc main_arg3)) shapeCasts_S2048_S1x2048 := by
  dsimp only [V, hostOps0]; after_results; rfl
/-- The modulation's bias as a row. -/
theorem arr_bm (c : Dev nD) : (V m c main_v9 : Vec Ideal S1x2048 .f32) = shapeCast S1x2048 (m ((c : Thread nD τ).loc main_arg7)) shapeCasts_S2048_S1x2048 := by
  dsimp only [V, hostOps0]; after_results; rfl
/-- The input term's bias as a row. -/
theorem arr_bb (c : Dev nD) : (V m c main_v10 : Vec Ideal S1x2048 .f32) = shapeCast S1x2048 (m ((c : Thread nD τ).loc main_arg9)) shapeCasts_S2048_S1x2048 := by
  dsimp only [V, hostOps0]; after_results; rfl

/-! ## Where each window's block lies -/

/-- The printed index maps, decided over the 32 points: the three row-tiled inputs and the output are at block row `t`,
    every other window at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = t.val ∧ win0_11.index t (1 : Fin 2) = 0) :=
  (by decide +kernel : ∀ t : Fin grid0.N, _)

/-- Row `r` of point `t`'s blocks is row `128 t + r` of the arrays. -/
def rowOf (t : Fin cfg0.N) (r : Fin 128) : Fin 4096 :=
  ⟨t.val * 128 + r.val, by have h := t.isLt; have hN : cfg0.N = 32 := N_0; have := r.isLt; omega⟩

/-- Point `t`'s block of `w`: its rows. -/
theorem blk_w (c : Dev nD) (t : Fin cfg0.N) (r : Fin 128) (k : Fin 2048) :
    (iblk m c 0 t : Vec Ideal S128x2048 .f32) (ix2 r k) = ((m ((c : Thread nD τ).loc main_arg0)) : Vec Ideal S4096x2048 .f32) (ix2 (rowOf t r) k) := by
  obtain ⟨⟨e0, e1⟩, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 128 + 1 * r.val = t.val * 128 + r.val; rw [e0]; omega
  | ⟨1, _⟩ => show win0_0.index t (1 : Fin 2) * 2048 + 1 * k.val = k.val; rw [e1]; omega
/-- Point `t`'s block of `z`: its rows. -/
theorem blk_z (c : Dev nD) (t : Fin cfg0.N) (r : Fin 128) (k : Fin 2048) :
    (iblk m c 1 t : Vec Ideal S128x2048 .f32) (ix2 r k) = ((m ((c : Thread nD τ).loc main_arg1)) : Vec Ideal S4096x2048 .f32) (ix2 (rowOf t r) k) := by
  obtain ⟨-, ⟨e0, e1⟩, -⟩ := idx_facts t
  unfold iblk
  rw [View.read_apply]
  show V m c main_arg1 _ = _
  rw [V_main_arg1]
  refine congrArg _ (funext fun a => Fin.ext ?_)
  match a with
  | ⟨0, _⟩ => show win0_1.index t (0 : Fin 2) * 128 + 1 * r.val = t.val * 128 + r.val; rw [e0]; omega
  | ⟨1, _⟩ => show win0_1.index t (1 : Fin 2) * 2048 + 1 * k.val = k.val; rw [e1]; omega
/-- Point `t`'s block of `c`: its rows. -/
theorem blk_c (c : Dev nD) (t : Fin cfg0.N) (r : Fin 128) (k : Fin 1024) :
    (iblk m c 2 t : Vec Ideal S128x1024 .f32) (ix2 r k) = ((m ((c : Thread nD τ).loc main_arg2)) : Vec Ideal S4096x1024 .f32) (ix2 (rowOf t r) k) := by
  obtain ⟨-, -, ⟨e0, e1⟩, -⟩ := idx_facts t
  unfold iblk
  rw [View.read_apply]
  show V m c main_arg2 _ = _
  rw [V_main_arg2]
  refine congrArg _ (funext fun a => Fin.ext ?_)
  match a with
  | ⟨0, _⟩ => show win0_2.index t (0 : Fin 2) * 128 + 1 * r.val = t.val * 128 + r.val; rw [e0]; omega
  | ⟨1, _⟩ => show win0_2.index t (1 : Fin 2) * 1024 + 1 * k.val = k.val; rw [e1]; omega

/-- Every point's block of the narrowed `A_V` is the whole of it. -/
theorem blk_av (c : Dev nD) (t : Fin cfg0.N) :
    (iblk m c 4 t : Vec Ideal S2048x512 .bf16) = truncf (F := Ideal) .bf16 (m ((c : Thread nD τ).loc main_arg5)) bitsLt_bf16_f32 := by
  obtain ⟨-, -, -, -, ⟨e0, e1⟩, -⟩ := idx_facts t
  funext x
  unfold iblk
  rw [View.read_apply]
  show V m c main_v0 _ = _
  rw [arr_av]
  refine congrArg _ (funext fun a => Fin.ext ?_)
  match a with
  | ⟨0, _⟩ => show win0_4.index t (0 : Fin 2) * 2048 + 1 * (x 0).val = (x 0).val; rw [e0]; omega
  | ⟨1, _⟩ => show win0_4.index t (1 : Fin 2) * 512 + 1 * (x 1).val = (x 1).val; rw [e1]; omega
/-- Every point's block of the narrowed `A_Uᵀ` is the whole of it. -/
theorem blk_ut (c : Dev nD) (t : Fin cfg0.N) :
    (iblk m c 5 t : Vec Ideal S512x2048 .bf16)
      = truncf (F := Ideal) .bf16 (transpose S512x2048 [1, 0] (m ((c : Thread nD τ).loc main_arg4)) transposes_S2048x512_S512x2048_1_0) bitsLt_bf16_f32 := by
  obtain ⟨-, -, -, -, -, ⟨e0, e1⟩, -⟩ := idx_facts t
  funext x
  unfold iblk
  rw [View.read_apply]
  show V m c main_v2 _ = _
  rw [arr_ut]
  refine congrArg _ (funext fun a => Fin.ext ?_)
  match a with
  | ⟨0, _⟩ => show win0_5.index t (0 : Fin 2) * 512 + 1 * (x 0).val = (x 0).val; rw [e0]; omega
  | ⟨1, _⟩ => show win0_5.index t (1 : Fin 2) * 2048 + 1 * (x 1).val = (x 1).val; rw [e1]; omega
/-- Every point's block of the narrowed `W_mod` is the whole of it. -/
theorem blk_wm (c : Dev nD) (t : Fin cfg0.N) :
    (iblk m c 6 t : Vec Ideal S1024x2048 .bf16) = truncf (F := Ideal) .bf16 (m ((c : Thread nD τ).loc main_arg6)) bitsLt_bf16_f32 := by
  obtain ⟨-, -, -, -, -, -, ⟨e0, e1⟩, -⟩ := idx_facts t
  funext x
  unfold iblk
  rw [View.read_apply]
  show V m c main_v3 _ = _
  rw [arr_wm]
  refine congrArg _ (funext fun a => Fin.ext ?_)
  match a with
  | ⟨0, _⟩ => show win0_6.index t (0 : Fin 2) * 1024 + 1 * (x 0).val = (x 0).val; rw [e0]; omega
  | ⟨1, _⟩ => show win0_6.index t (1 : Fin 2) * 2048 + 1 * (x 1).val = (x 1).val; rw [e1]; omega
/-- Every point's block of the narrowed top of `W_B` is the whole of it. -/
theorem blk_wc (c : Dev nD) (t : Fin cfg0.N) :
    (iblk m c 8 t : Vec Ideal S1024x2048 .bf16)
      = truncf (F := Ideal) .bf16 (extractStridedSlice S1024x2048 ![0, 0] (m ((c : Thread nD τ).loc main_arg8)) slices_S3072x2048_S1024x2048_0_0) bitsLt_bf16_f32 := by
  obtain ⟨-, -, -, -, -, -, -, -, ⟨e0, e1⟩, -⟩ := idx_facts t
  funext x
  unfold iblk
  rw [View.read_apply]
  show V m c main_v5 _ = _
  rw [arr_wc]
  refine congrArg _ (funext fun a => Fin.ext ?_)
  match a with
  | ⟨0, _⟩ => show win0_8.index t (0 : Fin 2) * 1024 + 1 * (x 0).val = (x 0).val; rw [e0]; omega
  | ⟨1, _⟩ => show win0_8.index t (1 : Fin 2) * 2048 + 1 * (x 1).val = (x 1).val; rw [e1]; omega
/-- Every point's block of the narrowed bottom of `W_B` is the whole of it. -/
theorem blk_wz (c : Dev nD) (t : Fin cfg0.N) :
    (iblk m c 9 t : Vec Ideal S2048x2048 .bf16)
      = truncf (F := Ideal) .bf16 (extractStridedSlice S2048x2048 ![1024, 0] (m ((c : Thread nD τ).loc main_arg8)) slices_S3072x2048_S2048x2048_1024_0) bitsLt_bf16_f32 := by
  obtain ⟨-, -, -, -, -, -, -, -, -, ⟨e0, e1⟩, -⟩ := idx_facts t
  funext x
  unfold iblk
  rw [View.read_apply]
  show V m c main_v7 _ = _
  rw [arr_wz]
  refine congrArg _ (funext fun a => Fin.ext ?_)
  match a with
  | ⟨0, _⟩ => show win0_9.index t (0 : Fin 2) * 2048 + 1 * (x 0).val = (x 0).val; rw [e0]; omega
  | ⟨1, _⟩ => show win0_9.index t (1 : Fin 2) * 2048 + 1 * (x 1).val = (x 1).val; rw [e1]; omega

/-- A vector `[2048]` reshaped to a row `[1, 2048]` reads, at `(0, q)`, the vector at `q`. -/
theorem row_apply (v : Vec Ideal S2048 .f32) (q : Fin 2048) :
    shapeCast S1x2048 v shapeCasts_S2048_S1x2048 (ix2 (0 : Fin 1) q) = v (ix1 q) :=
  (shapeCast_addUnit_apply ![2048] v shapeCasts_S2048_S1x2048 (ix2 (0 : Fin 1) q)).trans
    (congrArg v (funext fun a => by match a with | ⟨0, _⟩ => rfl))

/-- Every point's block of the diagonal's row is the diagonal. -/
theorem blk_ad (c : Dev nD) (t : Fin cfg0.N) (q : Fin 2048) :
    (iblk m c 3 t : Vec Ideal S1x2048 .f32) (ix2 (0 : Fin 1) q) = ((m ((c : Thread nD τ).loc main_arg3)) : Vec Ideal S2048 .f32) (ix1 q) := by
  obtain ⟨-, -, -, ⟨e0, e1⟩, -⟩ := idx_facts t
  unfold iblk
  rw [View.read_apply]
  show V m c main_v8 _ = _
  rw [arr_ad]
  refine Eq.trans (congrArg _ (funext fun a => Fin.ext ?_)) (row_apply _ q)
  match a with
  | ⟨0, _⟩ => show win0_3.index t (0 : Fin 2) * 1 + 1 * 0 = 0; rw [e0]
  | ⟨1, _⟩ => show win0_3.index t (1 : Fin 2) * 2048 + 1 * q.val = q.val; rw [e1]; omega
/-- Every point's block of the modulation bias's row is the bias. -/
theorem blk_bm (c : Dev nD) (t : Fin cfg0.N) (q : Fin 2048) :
    (iblk m c 7 t : Vec Ideal S1x2048 .f32) (ix2 (0 : Fin 1) q) = ((m ((c : Thread nD τ).loc main_arg7)) : Vec Ideal S2048 .f32) (ix1 q) := by
  obtain ⟨-, -, -, -, -, -, -, ⟨e0, e1⟩, -⟩ := idx_facts t
  unfold iblk
  rw [View.read_apply]
  show V m c main_v9 _ = _
  rw [arr_bm]
  refine Eq.trans (congrArg _ (funext fun a => Fin.ext ?_)) (row_apply _ q)
  match a with
  | ⟨0, _⟩ => show win0_7.index t (0 : Fin 2) * 1 + 1 * 0 = 0; rw [e0]
  | ⟨1, _⟩ => show win0_7.index t (1 : Fin 2) * 2048 + 1 * q.val = q.val; rw [e1]; omega
/-- Every point's block of the input bias's row is the bias. -/
theorem blk_bb (c : Dev nD) (t : Fin cfg0.N) (q : Fin 2048) :
    (iblk m c 10 t : Vec Ideal S1x2048 .f32) (ix2 (0 : Fin 1) q) = ((m ((c : Thread nD τ).loc main_arg9)) : Vec Ideal S2048 .f32) (ix1 q) := by
  obtain ⟨-, -, -, -, -, -, -, -, -, -, ⟨e0, e1⟩, -⟩ := idx_facts t
  unfold iblk
  rw [View.read_apply]
  show V m c main_v10 _ = _
  rw [arr_bb]
  refine Eq.trans (congrArg _ (funext fun a => Fin.ext ?_)) (row_apply _ q)
  match a with
  | ⟨0, _⟩ => show win0_10.index t (0 : Fin 2) * 1 + 1 * 0 = 0; rw [e0]
  | ⟨1, _⟩ => show win0_10.index t (1 : Fin 2) * 2048 + 1 * q.val = q.val; rw [e1]; omega

/-! ## What each point writes back, and the array after the run -/

theorem hz : (![0, 0] : Fin 2 → Nat) = fun _ => 0 := funext fun a => by fin_cases a <;> rfl

/-- WHAT POINT `t` WRITES BACK is block `t` of `result`: rows `128 t … 128 t + 127`. -/
theorem flushed_eq (c : Dev nD) (t : Fin cfg0.N) :
    (dats m 0 c).flushed 11 t = ((cfg0.win 11).blk t).view.read (Elt Ideal) (result m c) := by
  obtain ⟨-, -, -, -, -, -, -, -, -, -, -, ⟨e0, e1⟩⟩ := idx_facts t
  rw [Cert.KernelIdeal.Value.flushed11]
  unfold out0_11
  rw [View.canon_unit_zero hz]
  simp only [View.ld_unit_zero (S := S128x2048) hz, View.ld_unit_zero (S := S128x1024) hz, View.ld_unit_zero (S := S1x2048) hz,
    View.ld_unit_zero (S := S1024x2048) hz, View.ld_unit_zero (S := S2048x512) hz, View.ld_unit_zero (S := S512x2048) hz,
    View.ld_unit_zero (S := S2048x2048) hz]
  funext j
  obtain ⟨r, q, rfl⟩ : ∃ (r : Fin 128) (q : Fin 2048), j = ix2 r q := ⟨j 0, j 1, eq_ix2 j⟩
  have he : ((cfg0.win 11).blk t).view.emb (ix2 r q) = ix2 (rowOf t r) q := funext fun a => Fin.ext (by
    match a with
    | ⟨0, _⟩ => show win0_11.index t (0 : Fin 2) * 128 + 1 * r.val = t.val * 128 + r.val; rw [e0]; omega
    | ⟨1, _⟩ => show win0_11.index t (1 : Fin 2) * 2048 + 1 * q.val = q.val; rw [e1]; omega)
  refine (tile_eq (iblk m c 0 t) (iblk m c 1 t) (iblk m c 2 t) (iblk m c 3 t) (iblk m c 4 t) (iblk m c 5 t) (iblk m c 6 t)
    (iblk m c 7 t) (iblk m c 8 t) (iblk m c 9 t) (iblk m c 10 t)
    (m ((c : Thread nD τ).loc main_arg0))
    (m ((c : Thread nD τ).loc main_arg1))
    (m ((c : Thread nD τ).loc main_arg2))
    (m ((c : Thread nD τ).loc main_arg3))
    (m ((c : Thread nD τ).loc main_arg4))
    (m ((c : Thread nD τ).loc main_arg5))
    (m ((c : Thread nD τ).loc main_arg6))
    (m ((c : Thread nD τ).loc main_arg7))
    (m ((c : Thread nD τ).loc main_arg8))
    (m ((c : Thread nD τ).loc main_arg9))
    (rowOf t) (blk_w m c t) (blk_z m c t) (blk_c m c t) (blk_ad m c t) (blk_av m c t) (blk_ut m c t) (blk_wm m c t)
    (blk_bm m c t) (blk_wc m c t) (blk_wz m c t) (blk_bb m c t) r q).trans ?_
  rw [View.read_apply, he]
  rfl

/-- An index of the array is in point `t`'s block iff each coordinate is in the block's range on its axis. -/
theorem mem_blk (t : Fin cfg0.N) (i : S4096x2048.Idx) :
    i ∈ ((cfg0.win 11).blk t).view.set ↔ ∀ a : Fin 2, win0_11.index t a * S128x2048.size a ≤ (i a).val ∧ (i a).val < win0_11.index t a * S128x2048.size a + S128x2048.size a := by
  show i ∈ ((View.whole main_v11).slice (win0_11.rect t)).set ↔ _
  rw [View.set_slice_whole, Rect.mem_set_unit]
  exact Iff.rfl

/-- THE COVER: row `i` of the array is in the block of point `i / 128`. -/
theorem cover (i : S4096x2048.Idx) : ∃ t : Fin cfg0.N, (cfg0.win 11).flush t = true ∧ i ∈ ((cfg0.win 11).blk t).view.set := by
  have hi0 : (i 0).val < 4096 := (i 0).isLt
  have hi1 : (i 1).val < 2048 := (i 1).isLt
  obtain ⟨t, ht⟩ : ∃ t : Fin cfg0.N, t.val = (i 0).val / 128 := ⟨⟨(i 0).val / 128, by rw [show cfg0.N = 32 from N_0]; omega⟩, rfl⟩
  obtain ⟨-, -, -, -, -, -, -, -, -, -, -, ⟨e0, e1⟩⟩ := idx_facts t
  refine ⟨t, flush0_11 t, ?_⟩
  rw [mem_blk]
  intro a
  match a with
  | ⟨0, _⟩ => show win0_11.index t (0 : Fin 2) * 128 ≤ (i 0).val ∧ (i 0).val < win0_11.index t (0 : Fin 2) * 128 + 128; rw [e0]; omega
  | ⟨1, _⟩ => show win0_11.index t (1 : Fin 2) * 2048 ≤ (i 1).val ∧ (i 1).val < win0_11.index t (1 : Fin 2) * 2048 + 2048; rw [e1]; omega

/-- THE ARRAY after the run is `result`. -/
theorem final (c : Dev nD) : (dats m 0 c).arrAt 11 cfg0.N = result m c :=
  (dats m 0 c).arrAt_eq_of_cover 11 (result m c) (fun t _ => flushed_eq m c t) cover

/-- The run, read: the result array at `result`, the arguments unchanged. -/
theorem run : θ_run defs (onTc (τ := τ) (main (F := Ideal))) ⟨m, fun _ => 0, ρ⟩ fun r => ∀ c : Dev nD,
      r.2.mem ((c : Thread nD τ).loc main_v11) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun _ h c => ⟨(h c).1.trans (final m c), (h c).2⟩) (Cert.KernelIdeal.Value.run_blocks m ρ)

end Cert.StateUpdate

end
-- ==== Proof.lean ====
/-
  The certificate of the modulated low-rank-plus-diagonal state update.

  Kernel and plain program compute, for every row `i` and column `j`,
    `tanh (∑ₖ c[i,k] · W_mod[k,j] + b_mod[j]) · ((tanh A_diag[j] · κ) · w[i,j] + ∑ₛ (∑ₖ w[i,k] · A_V[k,s]) · A_U[j,s])
       + (∑ₖ [c | z][i,k] · W_B[k,j] + b_B[j])`
  over the extended reals, `κ` the same 32-bit constant on both sides. The kernel works on 128 rows at a time, narrows
  its matrix operands to bf16 (the identity on extended reals) and computes the last sum as the sum over `c`'s 1024
  columns against the top of `W_B` plus the sum over `z`'s 2048 columns against its bottom; a sum over 3072 indices is
  the sum over the first 1024 plus the sum over the last 2048, which asks nothing of the summands, so the inputs'
  finiteness is never used.
  The result array after the kernel's run is `StateUpdate.result` (KernelValue.lean, over the blockwise value leg and
  the tile lemma of TileValue.lean); the plain program's run ends at the same term read off its operations.
  No operation was rewritten by the idealization, so `preserves` holds trivially; the frames are the generated ones, the
  plain program's its run with the result dropped.
-/
import proofs.«168639_j43379169689842_1_alg».proof.Defs
import proofs.«168639_j43379169689842_1_alg».proof.Proof.Gen.Kernel
import proofs.«168639_j43379169689842_1_alg».proof.Proof.Gen.Kernel.Skeleton
import proofs.«168639_j43379169689842_1_alg».proof.Proof.Gen.Kernel.Launch
import proofs.«168639_j43379169689842_1_alg».proof.Proof.Gen.Kernel.Points
import proofs.«168639_j43379169689842_1_alg».proof.Proof.Gen.Kernel.Frame
import proofs.«168639_j43379169689842_1_alg».proof.Proof.Gen.KernelIdeal
import proofs.«168639_j43379169689842_1_alg».proof.Proof.Gen.KernelIdeal.Skeleton
import proofs.«168639_j43379169689842_1_alg».proof.Proof.Gen.KernelIdeal.Launch
import proofs.«168639_j43379169689842_1_alg».proof.Proof.Gen.KernelIdeal.Points
import proofs.«168639_j43379169689842_1_alg».proof.Proof.Gen.KernelIdeal.Frame
import proofs.«168639_j43379169689842_1_alg».proof.Proof.Gen.ReferenceIdeal
import proofs.«168639_j43379169689842_1_alg».proof.Proof.Gen.KernelIdeal.Value
import proofs.«168639_j43379169689842_1_alg».proof.Proof.Gen.ReferenceIdeal.Run
import proofs.«168639_j43379169689842_1_alg».proof.Proof.Gen.ReferenceIdeal.Read
import proofs.«168639_j43379169689842_1_alg».proof.Proof.Gen.Pre_finite_inputs
import proofs.«168639_j43379169689842_1_alg».proof.Proof.KernelValue
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The plain program's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the ten arguments both programs end with the result array at the state update of those
    arguments: the kernel by its 32 row blocks, the plain program by its operations' composed term. -/
theorem algebraic : Cert.algebraic_KernelIdeal_ReferenceIdeal := by
  intro m ρ m' ρ' _ hagree
  refine ⟨fun c => Cert.StateUpdate.result m c, Cert.StateUpdate.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  rw [a0, a1, a2, a3, a4, a5, a6, a7, a8, a9]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
